-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_arg1)) (v2 : (c : Dev Cert.KernelIdeal.nD) → Buf (Elt Ideal) ((c.tc : Thread Cert.KernelIdeal.nD Cert.KernelIdeal.τ).loc Cert.KernelIdeal.main_v4_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_arg1) = v1 c
          ∧ r.2.mem ((c.tc : Thread Cert.KernelIdeal.nD Cert.KernelIdeal.τ).loc Cert.KernelIdeal.main_v4_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg0) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_v60) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4x2048x768 : Shape := ⟨4, ![8, 4, 2048, 768]⟩
abbrev S8x2048 : Shape := ⟨2, ![8, 2048]⟩
abbrev S4x768x9 : Shape := ⟨3, ![4, 768, 9]⟩
abbrev S4x9 : Shape := ⟨2, ![4, 9]⟩
abbrev S_ : Shape := ⟨0, ![]⟩

class Facts : Prop where
  bcast_S_S8x4x2048x768 : S_.BroadcastsInDim S8x4x2048x768 (![] : Fin 0 → Fin S8x4x2048x768.rank)
  reducesTo_S8x4x2048x768_S_d0_1_2_3 : S8x4x2048x768.ReducesTo [0, 1, 2, 3] S_
  h_S_ : 0 < S_.numel
  bcast_S_S4x768x9 : S_.BroadcastsInDim S4x768x9 (![] : Fin 0 → Fin S4x768x9.rank)
  reducesTo_S4x768x9_S_d0_1_2 : S4x768x9.ReducesTo [0, 1, 2] S_
  bcast_S_S4x9 : S_.BroadcastsInDim S4x9 (![] : Fin 0 → Fin S4x9.rank)
  reducesTo_S4x9_S_d0_1 : S4x9.ReducesTo [0, 1] S_

variable [Facts]

def fn {F : FTy → Type} [FloatOps F] (main_arg0 : FVec F S8x4x2048x768 .f32) (main_arg1 : IVec S8x2048 1) (main_arg2 : FVec F S4x768x9 .f32) (main_arg3 : FVec F S4x9 .f32) : IVec S_ 1 :=
  let main_v0 : FVec F S8x4x2048x768 .f32 := Host.absf main_arg0
  let main_cst : FVec F S_ .f32 := constant S_ .f32 0x7F800000#32
  let main_v1 : FVec F S8x4x2048x768 .f32 := broadcastInDim S8x4x2048x768 ![] bcast_S_S8x4x2048x768 main_cst
  let main_v2 : IVec S8x4x2048x768 1 := cmpf .olt main_v0 main_v1
  let main_c : IVec S_ 1 := constantI S_ 1 1#1
  let main_v3 : IVec S_ 1 := (fun x v => Host.reduce IntOp.andi x v reducesTo_S8x4x2048x768_S_d0_1_2_3 h_S_) main_v2 main_c
  let main_v4 : FVec F S4x768x9 .f32 := Host.absf main_arg2
  let main_cst_0 : FVec F S_ .f32 := constant S_ .f32 0x7F800000#32
  let main_v5 : FVec F S4x768x9 .f32 := broadcastInDim S4x768x9 ![] bcast_S_S4x768x9 main_cst_0
  let main_v6 : IVec S4x768x9 1 := cmpf .olt main_v4 main_v5
  let main_c_1 : IVec S_ 1 := constantI S_ 1 1#1
  let main_v7 : IVec S_ 1 := (fun x v => Host.reduce IntOp.andi x v reducesTo_S4x768x9_S_d0_1_2 h_S_) main_v6 main_c_1
  let main_v8 : IVec S_ 1 := andi main_v3 main_v7
  let main_v9 : FVec F S4x9 .f32 := Host.absf main_arg3
  let main_cst_2 : FVec F S_ .f32 := constant S_ .f32 0x7F800000#32
  let main_v10 : FVec F S4x9 .f32 := broadcastInDim S4x9 ![] bcast_S_S4x9 main_cst_2
  let main_v11 : IVec S4x9 1 := cmpf .olt main_v9 main_v10
  let main_c_3 : IVec S_ 1 := constantI S_ 1 1#1
  let main_v12 : IVec S_ 1 := (fun x v => Host.reduce IntOp.andi x v reducesTo_S4x9_S_d0_1 h_S_) main_v11 main_c_3
  let main_v13 : IVec S_ 1 := andi main_v8 main_v12
  main_v13
-- ==== Kernel.lean ====
abbrev S8x4x2048x768 : Shape := ⟨4, ![8, 4, 2048, 768]⟩
abbrev S8x2048 : Shape := ⟨2, ![8, 2048]⟩
abbrev S4x768x9 : Shape := ⟨3, ![4, 768, 9]⟩
abbrev S4x9 : Shape := ⟨2, ![4, 9]⟩
abbrev S_ : Shape := ⟨0, ![]⟩
abbrev S8x2048x1 : Shape := ⟨3, ![8, 2048, 1]⟩
abbrev S4x1x9 : Shape := ⟨3, ![4, 1, 9]⟩
abbrev S8x4x2048x9 : Shape := ⟨4, ![8, 4, 2048, 9]⟩
abbrev S1x512x1 : Shape := ⟨3, ![1, 512, 1]⟩
abbrev S1x768x9 : Shape := ⟨3, ![1, 768, 9]⟩
abbrev S1x1x9 : Shape := ⟨3, ![1, 1, 9]⟩
abbrev S1x1x512x768 : Shape := ⟨4, ![1, 1, 512, 768]⟩
abbrev S1x1x512x9 : Shape := ⟨4, ![1, 1, 512, 9]⟩
abbrev S512x768 : Shape := ⟨2, ![512, 768]⟩
abbrev S768x9 : Shape := ⟨2, ![768, 9]⟩
abbrev S512x9 : Shape := ⟨2, ![512, 9]⟩
abbrev S1x9 : Shape := ⟨2, ![1, 9]⟩
abbrev S512x1 : Shape := ⟨2, ![512, 1]⟩

abbrev nBuf : Space → Nat
  | .hbm => 14
  | .vmem => 12
  | .smem => 0
  | _ => 0

abbrev bufTy : (tb : Table) → Fin (tcTables nBuf tb) → BufTy
  | .hbm, ⟨0, _⟩ => ⟨S8x4x2048x768, .f32⟩
  | .hbm, ⟨1, _⟩ => ⟨S8x2048, .i1⟩
  | .hbm, ⟨2, _⟩ => ⟨S4x768x9, .f32⟩
  | .hbm, ⟨3, _⟩ => ⟨S4x9, .f32⟩
  | .hbm, ⟨4, _⟩ => ⟨S_, .f32⟩
  | .hbm, ⟨5, _⟩ => ⟨S_, .f32⟩
  | .hbm, ⟨6, _⟩ => ⟨S8x2048, .f32⟩
  | .hbm, ⟨7, _⟩ => ⟨S8x2048, .f32⟩
  | .hbm, ⟨8, _⟩ => ⟨S8x2048, .f32⟩
  | .hbm, ⟨9, _⟩ => ⟨S8x2048, .f32⟩
  | .hbm, ⟨10, _⟩ => ⟨S8x2048x1, .f32⟩
  | .hbm, ⟨11, _⟩ => ⟨S4x1x9, .f32⟩
  | .hbm, ⟨12, _⟩ => ⟨S8x4x2048x768, .f32⟩
  | .hbm, ⟨13, _⟩ => ⟨S8x4x2048x9, .f32⟩
  | .local _ .vmem, ⟨0, _⟩ => ⟨S1x512x1, .f32⟩
  | .local _ .vmem, ⟨1, _⟩ => ⟨S1x512x1, .f32⟩
  | .local _ .vmem, ⟨2, _⟩ => ⟨S1x768x9, .f32⟩
  | .local _ .vmem, ⟨3, _⟩ => ⟨S1x768x9, .f32⟩
  | .local _ .vmem, ⟨4, _⟩ => ⟨S1x1x9, .f32⟩
  | .local _ .vmem, ⟨5, _⟩ => ⟨S1x1x9, .f32⟩
  | .local _ .vmem, ⟨6, _⟩ => ⟨S1x1x512x768, .f32⟩
  | .local _ .vmem, ⟨7, _⟩ => ⟨S1x1x512x768, .f32⟩
  | .local _ .vmem, ⟨8, _⟩ => ⟨S1x1x512x768, .f32⟩
  | .local _ .vmem, ⟨9, _⟩ => ⟨S1x1x512x768, .f32⟩
  | .local _ .vmem, ⟨10, _⟩ => ⟨S1x1x512x9, .f32⟩
  | .local _ .vmem, ⟨11, _⟩ => ⟨S1x1x512x9, .f32⟩
  | _, _ => ⟨S8x4x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_call0_v0 : Ref sig .tc := ⟨.hbm, 6, rfl⟩
abbrev main_call0_v1 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 4, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x512x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x768x9 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1x1x9 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1x1x512x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x512x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x512x9 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

class Facts₀ : Prop where
  bcast_S_S8x2048 : S_.BroadcastsInDim S8x2048 (![] : Fin 0 → Fin S8x2048.rank)
  shapeCasts_S8x2048_S8x2048x1 : S8x2048.ShapeCasts S8x2048x1
  shapeCasts_S4x9_S4x1x9 : S4x9.ShapeCasts S4x1x9
  inb_S1x1x512x768_S1x1x512x768_0_0_0_0 : ∀ a, (![0, 0, 0, 0] : Fin 4 → Nat) a + S1x1x512x768.size a ≤ S1x1x512x768.size a
  h_S1x1x512x768 : 0 < S1x1x512x768.numel
  shapeCasts_S1x1x512x768_S512x768 : S1x1x512x768.ShapeCasts S512x768
  shapeCasts_S512x768_S1x1x512x768 : S512x768.ShapeCasts S1x1x512x768
  inb_S1x768x9_S1x768x9_0_0_0 : ∀ a, (![0, 0, 0] : Fin 3 → Nat) a + S1x768x9.size a ≤ S1x768x9.size a
  h_S1x768x9 : 0 < S1x768x9.numel
  shapeCasts_S1x768x9_S768x9 : S1x768x9.ShapeCasts S768x9
  inb_S1x1x9_S1x1x9_0_0_0 : ∀ a, (![0, 0, 0] : Fin 3 → Nat) a + S1x1x9.size a ≤ S1x1x9.size a
  h_S1x1x9 : 0 < S1x1x9.numel
  shapeCasts_S1x1x9_S1x9 : S1x1x9.ShapeCasts S1x9
  broadcasts_S1x9_S512x9 : S1x9.Broadcasts S512x9
  inb_S1x512x1_S1x512x1_0_0_0 : ∀ a, (![0, 0, 0] : Fin 3 → Nat) a + S1x512x1.size a ≤ S1x512x1.size a
  h_S1x512x1 : 0 < S1x512x1.numel
  shapeCasts_S1x512x1_S512x1 : S1x512x1.ShapeCasts S512x1
  broadcasts_S512x1_S512x9 : S512x1.Broadcasts S512x9
  inb_S1x1x512x9_S1x1x512x9_0_0_0_0 : ∀ a, (![0, 0, 0, 0] : Fin 4 → Nat) a + S1x1x512x9.size a ≤ S1x1x512x9.size a
  h_S1x1x512x9 : 0 < S1x1x512x9.numel
  shapeCasts_S1x1x512x9_S512x9 : S1x1x512x9.ShapeCasts S512x9
  shapeCasts_S512x9_S1x1x512x9 : S512x9.ShapeCasts S1x1x512x9
  dot_S512x768_S768x9_S512x9_1_0_0_1_n_n_wf : DotDims.WF S512x768 S768x9 S512x9 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1.size a ≤ S8x2048x1.size a
  hwx0_0 : ∀ i : grid0.Coords, EltTy.bits .f32 = 32 ∨ (Rect.block (s := S8x2048x1) S1x512x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x768x9.size a ≤ S4x768x9.size a
  hwx0_1 : ∀ i : grid0.Coords, EltTy.bits .f32 = 32 ∨ (Rect.block (s := S4x768x9) S1x768x9.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x9.size a ≤ S4x1x9.size a
  hwx0_2 : ∀ i : grid0.Coords, EltTy.bits .f32 = 32 ∨ (Rect.block (s := S4x1x9) S1x1x9.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x512x768.size a ≤ S8x4x2048x768.size a
  hwx0_3 : ∀ i : grid0.Coords, EltTy.bits .f32 = 32 ∨ (Rect.block (s := S8x4x2048x768) S1x1x512x768.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x512x768.size a ≤ S8x4x2048x768.size a
  hwx0_4 : ∀ i : grid0.Coords, EltTy.bits .f32 = 32 ∨ (Rect.block (s := S8x4x2048x768) S1x1x512x768.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x512x9.size a ≤ S8x4x2048x9.size a
  hwx0_5 : ∀ i : grid0.Coords, EltTy.bits .f32 = 32 ∨ (Rect.block (s := S8x4x2048x9) S1x1x512x9.size (cc0_transform_5 i) (hinb0_5 i)).WholeWords (EltTy.packing .f32)

variable [Facts₀]

def dot_S512x768_S768x9_S512x9_1_0_0_1_n_n : DotDims S512x768 S768x9 S512x9 where
  lhsContracting := [1]
  rhsContracting := [0]
  lhsNonContracting := [0]
  rhsNonContracting := [1]
  lhsBatch := []
  rhsBatch := []
  wf := dot_S512x768_S768x9_S512x9_1_0_0_1_n_n_wf

abbrev win0_0 : Pipeline.Window sig grid0 :=
  Pipeline.Window.ofSpec (Memref.whole main_v2) S1x512x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x768x9.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x1x9.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg0) S1x1x512x768.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4_0) S1x1x512x768.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4_1) S1x1x512x9.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8x4x2048x768 : Shape := ⟨4, ![8, 4, 2048, 768]⟩
abbrev S8x2048 : Shape := ⟨2, ![8, 2048]⟩
abbrev S4x768x9 : Shape := ⟨3, ![4, 768, 9]⟩
abbrev S4x9 : Shape := ⟨2, ![4, 9]⟩
abbrev S8x1x2048x768 : Shape := ⟨4, ![8, 1, 2048, 768]⟩
abbrev S8x2048x768 : Shape := ⟨3, ![8, 2048, 768]⟩
abbrev S16384x768 : Shape := ⟨2, ![16384, 768]⟩
abbrev S1x768x9 : Shape := ⟨3, ![1, 768, 9]⟩
abbrev S768x9 : Shape := ⟨2, ![768, 9]⟩
abbrev S16384x9 : Shape := ⟨2, ![16384, 9]⟩
abbrev S1x9 : Shape := ⟨2, ![1, 9]⟩
abbrev S9 : Shape := ⟨1, ![9]⟩
abbrev S8x2048x9 : Shape := ⟨3, ![8, 2048, 9]⟩
abbrev S8x2048x1 : Shape := ⟨3, ![8, 2048, 1]⟩
abbrev S_ : Shape := ⟨0, ![]⟩
abbrev S8x1x2048x9 : Shape := ⟨4, ![8, 1, 2048, 9]⟩
abbrev S8x4x2048x9 : Shape := ⟨4, ![8, 4, 2048, 9]⟩

abbrev nBuf : Space → Nat
  | .hbm => 81
  | .vmem => 0
  | .smem => 0
  | _ => 0

abbrev bufTy : (tb : Table) → Fin (tcTables nBuf tb) → BufTy
  | .hbm, ⟨0, _⟩ => ⟨S8x4x2048x768, .f32⟩
  | .hbm, ⟨1, _⟩ => ⟨S8x2048, .i1⟩
  | .hbm, ⟨2, _⟩ => ⟨S4x768x9, .f32⟩
  | .hbm, ⟨3, _⟩ => ⟨S4x9, .f32⟩
  | .hbm, ⟨4, _⟩ => ⟨S8x1x2048x768, .f32⟩
  | .hbm, ⟨5, _⟩ => ⟨S8x2048x768, .f32⟩
  | .hbm, ⟨6, _⟩ => ⟨S16384x768, .f32⟩
  | .hbm, ⟨7, _⟩ => ⟨S1x768x9, .f32⟩
  | .hbm, ⟨8, _⟩ => ⟨S768x9, .f32⟩
  | .hbm, ⟨9, _⟩ => ⟨S16384x9, .f32⟩
  | .hbm, ⟨10, _⟩ => ⟨S1x9, .f32⟩
  | .hbm, ⟨11, _⟩ => ⟨S9, .f32⟩
  | .hbm, ⟨12, _⟩ => ⟨S1x9, .f32⟩
  | .hbm, ⟨13, _⟩ => ⟨S16384x9, .f32⟩
  | .hbm, ⟨14, _⟩ => ⟨S16384x9, .f32⟩
  | .hbm, ⟨15, _⟩ => ⟨S8x2048x9, .f32⟩
  | .hbm, ⟨16, _⟩ => ⟨S8x2048x1, .i1⟩
  | .hbm, ⟨17, _⟩ => ⟨S_, .f32⟩
  | .hbm, ⟨18, _⟩ => ⟨S_, .f32⟩
  | .hbm, ⟨19, _⟩ => ⟨S8x2048x9, .i1⟩
  | .hbm, ⟨20, _⟩ => ⟨S8x2048x9, .f32⟩
  | .hbm, ⟨21, _⟩ => ⟨S8x2048x9, .f32⟩
  | .hbm, ⟨22, _⟩ => ⟨S8x1x2048x768, .f32⟩
  | .hbm, ⟨23, _⟩ => ⟨S8x2048x768, .f32⟩
  | .hbm, ⟨24, _⟩ => ⟨S16384x768, .f32⟩
  | .hbm, ⟨25, _⟩ => ⟨S1x768x9, .f32⟩
  | .hbm, ⟨26, _⟩ => ⟨S768x9, .f32⟩
  | .hbm, ⟨27, _⟩ => ⟨S16384x9, .f32⟩
  | .hbm, ⟨28, _⟩ => ⟨S1x9, .f32⟩
  | .hbm, ⟨29, _⟩ => ⟨S9, .f32⟩
  | .hbm, ⟨30, _⟩ => ⟨S1x9, .f32⟩
  | .hbm, ⟨31, _⟩ => ⟨S16384x9, .f32⟩
  | .hbm, ⟨32, _⟩ => ⟨S16384x9, .f32⟩
  | .hbm, ⟨33, _⟩ => ⟨S8x2048x9, .f32⟩
  | .hbm, ⟨34, _⟩ => ⟨S8x2048x1, .i1⟩
  | .hbm, ⟨35, _⟩ => ⟨S_, .f32⟩
  | .hbm, ⟨36, _⟩ => ⟨S_, .f32⟩
  | .hbm, ⟨37, _⟩ => ⟨S8x2048x9, .i1⟩
  | .hbm, ⟨38, _⟩ => ⟨S8x2048x9, .f32⟩
  | .hbm, ⟨39, _⟩ => ⟨S8x2048x9, .f32⟩
  | .hbm, ⟨40, _⟩ => ⟨S8x1x2048x768, .f32⟩
  | .hbm, ⟨41, _⟩ => ⟨S8x2048x768, .f32⟩
  | .hbm, ⟨42, _⟩ => ⟨S16384x768, .f32⟩
  | .hbm, ⟨43, _⟩ => ⟨S1x768x9, .f32⟩
  | .hbm, ⟨44, _⟩ => ⟨S768x9, .f32⟩
  | .hbm, ⟨45, _⟩ => ⟨S16384x9, .f32⟩
  | .hbm, ⟨46, _⟩ => ⟨S1x9, .f32⟩
  | .hbm, ⟨47, _⟩ => ⟨S9, .f32⟩
  | .hbm, ⟨48, _⟩ => ⟨S1x9, .f32⟩
  | .hbm, ⟨49, _⟩ => ⟨S16384x9, .f32⟩
  | .hbm, ⟨50, _⟩ => ⟨S16384x9, .f32⟩
  | .hbm, ⟨51, _⟩ => ⟨S8x2048x9, .f32⟩
  | .hbm, ⟨52, _⟩ => ⟨S8x2048x1, .i1⟩
  | .hbm, ⟨53, _⟩ => ⟨S_, .f32⟩
  | .hbm, ⟨54, _⟩ => ⟨S_, .f32⟩
  | .hbm, ⟨55, _⟩ => ⟨S8x2048x9, .i1⟩
  | .hbm, ⟨56, _⟩ => ⟨S8x2048x9, .f32⟩
  | .hbm, ⟨57, _⟩ => ⟨S8x2048x9, .f32⟩
  | .hbm, ⟨58, _⟩ => ⟨S8x1x2048x768, .f32⟩
  | .hbm, ⟨59, _⟩ => ⟨S8x2048x768, .f32⟩
  | .hbm, ⟨60, _⟩ => ⟨S16384x768, .f32⟩
  | .hbm, ⟨61, _⟩ => ⟨S1x768x9, .f32⟩
  | .hbm, ⟨62, _⟩ => ⟨S768x9, .f32⟩
  | .hbm, ⟨63, _⟩ => ⟨S16384x9, .f32⟩
  | .hbm, ⟨64, _⟩ => ⟨S1x9, .f32⟩
  | .hbm, ⟨65, _⟩ => ⟨S9, .f32⟩
  | .hbm, ⟨66, _⟩ => ⟨S1x9, .f32⟩
  | .hbm, ⟨67, _⟩ => ⟨S16384x9, .f32⟩
  | .hbm, ⟨68, _⟩ => ⟨S16384x9, .f32⟩
  | .hbm, ⟨69, _⟩ => ⟨S8x2048x9, .f32⟩
  | .hbm, ⟨70, _⟩ => ⟨S8x2048x1, .i1⟩
  | .hbm, ⟨71, _⟩ => ⟨S_, .f32⟩
  | .hbm, ⟨72, _⟩ => ⟨S_, .f32⟩
  | .hbm, ⟨73, _⟩ => ⟨S8x2048x9, .i1⟩
  | .hbm, ⟨74, _⟩ => ⟨S8x2048x9, .f32⟩
  | .hbm, ⟨75, _⟩ => ⟨S8x2048x9, .f32⟩
  | .hbm, ⟨76, _⟩ => ⟨S8x1x2048x9, .f32⟩
  | .hbm, ⟨77, _⟩ => ⟨S8x1x2048x9, .f32⟩
  | .hbm, ⟨78, _⟩ => ⟨S8x1x2048x9, .f32⟩
  | .hbm, ⟨79, _⟩ => ⟨S8x1x2048x9, .f32⟩
  | .hbm, ⟨80, _⟩ => ⟨S8x4x2048x9, .f32⟩
  | _, _ => ⟨S8x4x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_0 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_1 : Ref sig .tc := ⟨.hbm, 53, rfl⟩
abbrev main_call2_v0 : Ref sig .tc := ⟨.hbm, 54, rfl⟩
abbrev main_call2_v1 : Ref sig .tc := ⟨.hbm, 55, rfl⟩
abbrev main_call2_v2 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_cst_2 : Ref sig .tc := ⟨.hbm, 71, rfl⟩
abbrev main_call3_v0 : Ref sig .tc := ⟨.hbm, 72, rfl⟩
abbrev main_call3_v1 : Ref sig .tc := ⟨.hbm, 73, rfl⟩
abbrev main_call3_v2 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩

abbrev nD : Nat := 1
abbrev τ : Topo := Topo.v7x

variable {F : FTy → Type} [FloatOps F]

class Facts₀ : Prop where
  slices_S8x4x2048x768_S8x1x2048x768_0_0_0_0 : S8x4x2048x768.Slices ![0, 0, 0, 0] S8x1x2048x768
  shapeCasts_S8x1x2048x768_S8x2048x768 : S8x1x2048x768.ShapeCasts S8x2048x768
  shapeCasts_S8x2048x768_S16384x768 : S8x2048x768.ShapeCasts S16384x768
  slices_S4x768x9_S1x768x9_0_0_0 : S4x768x9.Slices ![0, 0, 0] S1x768x9
  shapeCasts_S1x768x9_S768x9 : S1x768x9.ShapeCasts S768x9
  slices_S4x9_S1x9_0_0 : S4x9.Slices ![0, 0] S1x9
  shapeCasts_S1x9_S9 : S1x9.ShapeCasts S9
  bcast_S9_S1x9_1 : S9.BroadcastsInDim S1x9 (![1] : Fin 1 → Fin S1x9.rank)
  bcast_S1x9_S16384x9_0_1 : S1x9.BroadcastsInDim S16384x9 (![0, 1] : Fin 2 → Fin S16384x9.rank)
  shapeCasts_S16384x9_S8x2048x9 : S16384x9.ShapeCasts S8x2048x9
  bcast_S8x2048_S8x2048x1_0_1 : S8x2048.BroadcastsInDim S8x2048x1 (![0, 1] : Fin 2 → Fin S8x2048x1.rank)
  bcast_S8x2048x1_S8x2048x9_0_1_2 : S8x2048x1.BroadcastsInDim S8x2048x9 (![0, 1, 2] : Fin 3 → Fin S8x2048x9.rank)
  bcast_S_S8x2048x9 : S_.BroadcastsInDim S8x2048x9 (![] : Fin 0 → Fin S8x2048x9.rank)
  slices_S8x4x2048x768_S8x1x2048x768_0_1_0_0 : S8x4x2048x768.Slices ![0, 1, 0, 0] S8x1x2048x768
  slices_S4x768x9_S1x768x9_1_0_0 : S4x768x9.Slices ![1, 0, 0] S1x768x9
  slices_S4x9_S1x9_1_0 : S4x9.Slices ![1, 0] S1x9
  slices_S8x4x2048x768_S8x1x2048x768_0_2_0_0 : S8x4x2048x768.Slices ![0, 2, 0, 0] S8x1x2048x768
  slices_S4x768x9_S1x768x9_2_0_0 : S4x768x9.Slices ![2, 0, 0] S1x768x9
  slices_S4x9_S1x9_2_0 : S4x9.Slices ![2, 0] S1x9
  slices_S8x4x2048x768_S8x1x2048x768_0_3_0_0 : S8x4x2048x768.Slices ![0, 3, 0, 0] S8x1x2048x768
  slices_S4x768x9_S1x768x9_3_0_0 : S4x768x9.Slices ![3, 0, 0] S1x768x9
  slices_S4x9_S1x9_3_0 : S4x9.Slices ![3, 0] S1x9
  bcast_S8x2048x9_S8x1x2048x9_0_2_3 : S8x2048x9.BroadcastsInDim S8x1x2048x9 (![0, 2, 3] : Fin 3 → Fin S8x1x2048x9.rank)
  concatenates_S8x1x2048x9_S8x1x2048x9_S8x1x2048x9_S8x1x2048x9_S8x4x2048x9_d1 : Shape.Concatenates [S8x1x2048x9, S8x1x2048x9, S8x1x2048x9, S8x1x2048x9] S8x4x2048x9 1
  dot_S16384x768_S768x9_S16384x9_1_0_0_1_n_n_wf : DotDims.WF S16384x768 S768x9 S16384x9 [1] [0] [0] [1] [] []

variable [Facts₀]

def dot_S16384x768_S768x9_S16384x9_1_0_0_1_n_n : DotDims S16384x768 S768x9 S16384x9 where
  lhsContracting := [1]
  rhsContracting := [0]
  lhsNonContracting := [0]
  rhsNonContracting := [1]
  lhsBatch := []
  rhsBatch := []
  wf := dot_S16384x768_S768x9_S16384x9_1_0_0_1_n_n_wf

class Facts : Prop extends Facts₀ where

variable [Facts]
-- ==== Proof.LibUnitAxes.lean ====
/-
  Three layout operations read at an index given by coordinates: two leading unit axes dropped, or added,
  by a shape cast (the row-major position is unchanged, the unit axes contributing nothing), and a column
  broadcast along rows (every column of the result is the operand's one column).
-/
import Idealize.ShloMosaic.Lib.ValueLayout

namespace Idealize.ShloMosaic.ValueIdx

open Idealize.ShloMosaic

variable {α : Type}

/-- A `[1, 1, a, b]` array cast to `[a, b]` reads, at `(i, j)`, the operand at `(0, 0, i, j)`: the two
    row-major positions agree because the unit axes contribute nothing. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An `[a, b]` array cast to `[1, 1, a, b]` reads, at `(u, v, i, j)`, the operand at `(i, j)`, whatever
    the unit coordinates `u`, `v`. -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = ((u.val * 1 + v.val) * a + i.val) * b + j.val
    rw [hu, hv]
    simp only [Nat.zero_mul, Nat.zero_add])

/-- An `[a, 1]` column broadcast to `[a, b]` reads, at `(p, c)`, the column's entry in row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.MaskedLogits.lean ====
/-
  The value both programs compute, stated once over the argument arrays.

  For a batch entry `n`, a layer `l`, a token position `s` and a class `c` the per-token logit is the
  inner product of the token's embedding row with column `c` of layer `l`'s weight matrix, plus that
  layer's bias: `logit n l s c = (∑ k, emb[n, l, s, k] · W[l, k, c]) + b[l, c]`. The result keeps the
  logit where the attention bit `att[n, s]` is set and is `-∞` (the bottom of the extended reals)
  where it is clear.

  One program masks by SELECTING between the logit and `-∞`; the other ADDS to the logit a mask that
  is `0` on attended positions and `-∞` elsewhere. On the extended reals `x + 0 = x` and
  `x + ⊥ = ⊥` for EVERY `x` (also `⊤ + ⊥ = ⊥`), so the two agree with no finiteness assumption:
  `add_mask`.
-/
import Idealize.ShloMosaic.Lib.ValueIdx
import Idealize.ShloMosaic.PureOps.Ideal.Laws

noncomputable section

open scoped BigOperators

namespace Cert.MaskedLogits

open Idealize.ShloMosaic Idealize.ShloMosaic.ValueIdx

/-- The embeddings `[8, 4, 2048, 768]`: batch, layer, position, feature. -/
abbrev EmbS : Shape := ⟨4, ![8, 4, 2048, 768]⟩
/-- The attention bits `[8, 2048]`: batch, position. -/
abbrev AttS : Shape := ⟨2, ![8, 2048]⟩
/-- The classifier weights `[4, 768, 9]`: layer, feature, class. -/
abbrev WgtS : Shape := ⟨3, ![4, 768, 9]⟩
/-- The classifier biases `[4, 9]`: layer, class. -/
abbrev BiasS : Shape := ⟨2, ![4, 9]⟩
/-- The logits `[8, 4, 2048, 9]`: batch, layer, position, class. -/
abbrev OutS : Shape := ⟨4, ![8, 4, 2048, 9]⟩

/-- The unmasked logit of one token for one class: the embedding row against the layer's weight column,
    plus the layer's bias. -/
def logit (emb : EmbS.Idx → EReal) (W : WgtS.Idx → EReal) (b : BiasS.Idx → EReal)
    (n : Fin 8) (l : Fin 4) (s : Fin 2048) (c : Fin 9) : EReal :=
  (∑ k : Fin 768, emb (ix4 n l s k) * W (ix3 l k c)) + b (ix2 l c)

/-- The masked logits: the logit where the position is attended, `-∞` where it is not. -/
def masked (emb : EmbS.Idx → EReal) (att : AttS.Idx → BitVec 1) (W : WgtS.Idx → EReal) (b : BiasS.Idx → EReal) :
    OutS.Idx → EReal :=
  fun i => Scalar.select (att (ix2 (i 0) (i 2))) (logit emb W b (i 0) (i 1) (i 2) (i 3)) ⊥

/-- Adding the additive mask (`0` where the bit is set, `-∞` where it is clear) is selecting between the
    summand and `-∞`: `x + 0 = x`, and `x + ⊥ = ⊥` whatever `x` is. -/
theorem add_mask (c : BitVec 1) (x : EReal) :
    x + Scalar.select c (0 : EReal) ⊥ = Scalar.select c x ⊥ := by
  unfold Scalar.select
  split
  · exact add_zero x
  · exact EReal.add_bot x

/-- The word `0xFF800000` is `-∞`. -/
theorem ofBits_neg_inf : Ideal.ofBits .f32 0xFF800000#32 = (⊥ : EReal) := by
  simp [Ideal.ofBits, Ideal.ieee]

end Cert.MaskedLogits

end
-- ==== Proof.KernelBlocks.lean ====
/-
  What the kernel's region finds in its windows.

  Two of the windows' arrays are written by host operations before the region: the ADDITIVE MASK
  `[8, 2048, 1]`, which is `0` where the attention bit is set and `-∞` where it is clear, and the biases
  re-laid as `[4, 1, 9]`. The grid has a point per (batch entry `n`, layer `l`, quarter `q` of the 2048
  positions). At that point the embedding window holds rows `512 q … 512 q + 511` of `emb[n, l]`, the weight
  and bias windows hold layer `l`'s, and the mask window holds the same 512 positions of batch entry `n`.
-/
import proofs.«137391_g38113539785138_cont_8to1_b_1190_5_alg».proof.Proof.Gen.KernelIdeal.Value
import proofs.«137391_g38113539785138_cont_8to1_b_1190_5_alg».proof.Proof.LibUnitAxes
import proofs.«137391_g38113539785138_cont_8to1_b_1190_5_alg».proof.Proof.MaskedLogits
import Idealize.ShloMosaic.Lib.StableHlo.Run
import Idealize.ShloMosaic.Lib.Pipeline.Value
import Idealize.ShloMosaic.Lib.ValueLayout

noncomputable section

namespace Cert.KernelIdeal.Blocks

open Cert.KernelIdeal Cert.KernelIdeal.Gen Cert.KernelIdeal.Value Idealize.ShloMosaic Idealize.ShloMosaic.TcCoe Idealize.SL.Sem
open Idealize.ShloMosaic.StableHlo Idealize.ShloMosaic.ValueIdx Cert.MaskedLogits

variable (m : (ℓ : Loc nD τ sig) → Buf (Elt Ideal) ℓ)

/-! ## The arrays the host operations write -/

/-- The mask array as the region finds it: the select between the two splat constants by the attention bits,
    given a trailing unit axis. -/
theorem maskArr (c : Dev nD) : (V m c main_v2 : S8x2048x1.Idx → EReal)
    = shapeCast S8x2048x1 (select (m ((c : Thread nD τ).loc main_arg1))
        (broadcastInDim S8x2048 ![] bcast_S_S8x2048 (constant (F := Ideal) S_ .f32 0x00000000#32))
        (broadcastInDim S8x2048 ![] bcast_S_S8x2048 (constant (F := Ideal) S_ .f32 0xFF800000#32)))
      shapeCasts_S8x2048_S8x2048x1 := by
  dsimp only [Gen.V]
  simp only [Gen.hostOps0, Gen.hostOps0_1, Gen.hostOps0_2, List.flatten_cons, List.flatten_nil, List.append_nil,
    List.cons_append, List.nil_append]
  after_results
  rfl

/-- The mask at position `(n, s)`: `0` where the attention bit is set, `-∞` where it is clear. -/
theorem mask_apply (c : Dev nD) (n : Fin 8) (s : Fin 2048) :
    (V m c main_v2 : S8x2048x1.Idx → EReal) (ix3 n s (0 : Fin 1))
      = Scalar.select ((m ((c : Thread nD τ).loc main_arg1) : S8x2048.Idx → BitVec 1) (ix2 n s)) (0 : EReal) ⊥ := by
  rw [maskArr]
  refine (shapeCast_apply _ shapeCasts_S8x2048_S8x2048x1 (ix3 n s (0 : Fin 1)) (ix2 n s) ?_).trans ?_
  · rw [Shape.rowMajor_val_two, Shape.rowMajor_val_three]
    show n.val * 2048 + s.val = (n.val * 2048 + s.val) * 1 + 0
    omega
  rw [select_apply]
  refine congrArg₂ (Scalar.select _) ?_ ?_
  · refine (broadcastInDim_apply _ bcast_S_S8x2048 _ (ix2 n s) ix0 (fun a => a.elim0)).trans ?_
    exact Ideal.ofBits_zero_f32
  · refine (broadcastInDim_apply _ bcast_S_S8x2048 _ (ix2 n s) ix0 (fun a => a.elim0)).trans ?_
    exact ofBits_neg_inf

/-- The biases as the region finds them: the argument with a middle unit axis. -/
theorem biasArr (c : Dev nD) : (V m c main_v3 : S4x1x9.Idx → EReal)
    = shapeCast S4x1x9 (m ((c : Thread nD τ).loc main_arg3)) shapeCasts_S4x9_S4x1x9 := by
  dsimp only [Gen.V]
  simp only [Gen.hostOps0, Gen.hostOps0_1, Gen.hostOps0_2, List.flatten_cons, List.flatten_nil, List.append_nil,
    List.cons_append, List.nil_append]
  after_results
  rfl

/-- Layer `l`'s bias for class `c'`. -/
theorem bias_apply (c : Dev nD) (l : Fin 4) (c' : Fin 9) :
    (V m c main_v3 : S4x1x9.Idx → EReal) (ix3 l (0 : Fin 1) c')
      = (m ((c : Thread nD τ).loc main_arg3) : S4x9.Idx → EReal) (ix2 l c') := by
  rw [biasArr]
  refine shapeCast_apply _ shapeCasts_S4x9_S4x1x9 (ix3 l (0 : Fin 1) c') (ix2 l c') ?_
  rw [Shape.rowMajor_val_two, Shape.rowMajor_val_three]
  show l.val * 9 + c'.val = (l.val * 1 + 0) * 9 + c'.val
  omega

/-! ## Where the windows sit at a grid point -/

/-- The index maps over the 128 grid points: the two outputs and the embeddings move together over
    (batch entry, layer, quarter); the weights and biases follow the layer; the mask follows (batch entry, quarter). -/
theorem idx_facts : ∀ t : Fin cfg0.N,
    win0_5.index t (0 : Fin 4) < 8 ∧ win0_5.index t (1 : Fin 4) < 4 ∧ win0_5.index t (2 : Fin 4) < 4 ∧ win0_5.index t (3 : Fin 4) = 0
    ∧ win0_4.index t (0 : Fin 4) = win0_5.index t (0 : Fin 4) ∧ win0_4.index t (1 : Fin 4) = win0_5.index t (1 : Fin 4)
    ∧ win0_4.index t (2 : Fin 4) = win0_5.index t (2 : Fin 4) ∧ win0_4.index t (3 : Fin 4) = 0
    ∧ win0_3.index t (0 : Fin 4) = win0_5.index t (0 : Fin 4) ∧ win0_3.index t (1 : Fin 4) = win0_5.index t (1 : Fin 4)
    ∧ win0_3.index t (2 : Fin 4) = win0_5.index t (2 : Fin 4) ∧ win0_3.index t (3 : Fin 4) = 0
    ∧ win0_2.index t (0 : Fin 3) = win0_5.index t (1 : Fin 4) ∧ win0_2.index t (1 : Fin 3) = 0 ∧ win0_2.index t (2 : Fin 3) = 0
    ∧ win0_1.index t (0 : Fin 3) = win0_5.index t (1 : Fin 4) ∧ win0_1.index t (1 : Fin 3) = 0 ∧ win0_1.index t (2 : Fin 3) = 0
    ∧ win0_0.index t (0 : Fin 3) = win0_5.index t (0 : Fin 4) ∧ win0_0.index t (1 : Fin 3) = win0_5.index t (2 : Fin 4)
    ∧ win0_0.index t (2 : Fin 3) = 0 :=
  (by decide +kernel : ∀ t : Fin grid0.N, _)

/-! ## The input blocks read at an index -/

/-- The embedding block at a point that sits at (batch entry `n`, layer `l`, quarter `q`): its row `r` is
    token `512 q + r` of `emb[n, l]`. -/
theorem embBlock (c : Dev nD) (t : Fin cfg0.N) (n : Fin 8) (l : Fin 4) (q : Fin 4)
    (h0 : win0_3.index t (0 : Fin 4) = n.val) (h1 : win0_3.index t (1 : Fin 4) = l.val)
    (h2 : win0_3.index t (2 : Fin 4) = q.val) (h3 : win0_3.index t (3 : Fin 4) = 0) (y : S1x1x512x768.Idx) :
    (iblk m c 3 t : Vec Ideal S1x1x512x768 .f32) y
      = (m ((c : Thread nD τ).loc main_arg0) : S8x4x2048x768.Idx → EReal)
          (ix4 n l (⟨q.val * 512 + (y 2).val, by have := q.isLt; have h : (y 2).val < 512 := (y 2).isLt; omega⟩ : Fin 2048)
            (⟨(y 3).val, (y 3).isLt⟩ : Fin 768)) := by
  have hy0 : (y 0).val < 1 := (y 0).isLt
  have hy1 : (y 1).val < 1 := (y 1).isLt
  unfold iblk
  rw [View.read_apply]
  show V m c main_arg0 _ = _
  rw [V_main_arg0]
  refine congrArg _ (funext fun a => Fin.ext ?_)
  match a with
  | ⟨0, _⟩ => show win0_3.index t (0 : Fin 4) * 1 + 1 * (y 0).val = n.val; omega
  | ⟨1, _⟩ => show win0_3.index t (1 : Fin 4) * 1 + 1 * (y 1).val = l.val; omega
  | ⟨2, _⟩ => show win0_3.index t (2 : Fin 4) * 512 + 1 * (y 2).val = q.val * 512 + (y 2).val; omega
  | ⟨3, _⟩ => show win0_3.index t (3 : Fin 4) * 768 + 1 * (y 3).val = (y 3).val; omega

/-- The weight block at a point of layer `l` is layer `l`'s weight matrix. -/
theorem wgtBlock (c : Dev nD) (t : Fin cfg0.N) (l : Fin 4)
    (h0 : win0_1.index t (0 : Fin 3) = l.val) (h1 : win0_1.index t (1 : Fin 3) = 0) (h2 : win0_1.index t (2 : Fin 3) = 0)
    (k : Fin 768) (c' : Fin 9) :
    (iblk m c 1 t : Vec Ideal S1x768x9 .f32) (ix3 (0 : Fin 1) k c')
      = (m ((c : Thread nD τ).loc main_arg2) : S4x768x9.Idx → EReal) (ix3 l k c') := by
  unfold iblk
  rw [View.read_apply]
  show V m c main_arg2 _ = _
  rw [V_main_arg2]
  refine congrArg _ (funext fun a => Fin.ext ?_)
  match a with
  | ⟨0, _⟩ => show win0_1.index t (0 : Fin 3) * 1 + 1 * 0 = l.val; omega
  | ⟨1, _⟩ => show win0_1.index t (1 : Fin 3) * 768 + 1 * k.val = k.val; omega
  | ⟨2, _⟩ => show win0_1.index t (2 : Fin 3) * 9 + 1 * c'.val = c'.val; omega

/-- The bias block at a point of layer `l` is layer `l`'s bias row. -/
theorem biasBlock (c : Dev nD) (t : Fin cfg0.N) (l : Fin 4)
    (h0 : win0_2.index t (0 : Fin 3) = l.val) (h1 : win0_2.index t (1 : Fin 3) = 0) (h2 : win0_2.index t (2 : Fin 3) = 0)
    (c' : Fin 9) :
    (iblk m c 2 t : Vec Ideal S1x1x9 .f32) (ix3 (0 : Fin 1) (0 : Fin 1) c')
      = (m ((c : Thread nD τ).loc main_arg3) : S4x9.Idx → EReal) (ix2 l c') := by
  unfold iblk
  rw [View.read_apply]
  show (V m c main_v3 : S4x1x9.Idx → EReal) _ = _
  refine (congrArg (V m c main_v3 : S4x1x9.Idx → EReal) (funext fun a => Fin.ext ?_)).trans (bias_apply m c l c')
  match a with
  | ⟨0, _⟩ => show win0_2.index t (0 : Fin 3) * 1 + 1 * 0 = l.val; omega
  | ⟨1, _⟩ => show win0_2.index t (1 : Fin 3) * 1 + 1 * 0 = 0; omega
  | ⟨2, _⟩ => show win0_2.index t (2 : Fin 3) * 9 + 1 * c'.val = c'.val; omega

/-- The mask block at a point of (batch entry `n`, quarter `q`): row `r` is the mask of position `512 q + r`. -/
theorem maskBlock (c : Dev nD) (t : Fin cfg0.N) (n : Fin 8) (q : Fin 4)
    (h0 : win0_0.index t (0 : Fin 3) = n.val) (h1 : win0_0.index t (1 : Fin 3) = q.val) (h2 : win0_0.index t (2 : Fin 3) = 0)
    (r : Fin 512) :
    (iblk m c 0 t : Vec Ideal S1x512x1 .f32) (ix3 (0 : Fin 1) r (0 : Fin 1))
      = Scalar.select ((m ((c : Thread nD τ).loc main_arg1) : S8x2048.Idx → BitVec 1)
          (ix2 n (⟨q.val * 512 + r.val, by have := q.isLt; have := r.isLt; omega⟩ : Fin 2048))) (0 : EReal) ⊥ := by
  unfold iblk
  rw [View.read_apply]
  show (V m c main_v2 : S8x2048x1.Idx → EReal) _ = _
  refine (congrArg (V m c main_v2 : S8x2048x1.Idx → EReal) (funext fun a => Fin.ext ?_)).trans
    (mask_apply m c n (⟨q.val * 512 + r.val, by have := q.isLt; have := r.isLt; omega⟩ : Fin 2048))
  match a with
  | ⟨0, _⟩ => show win0_0.index t (0 : Fin 3) * 1 + 1 * 0 = n.val; omega
  | ⟨1, _⟩ => show win0_0.index t (1 : Fin 3) * 512 + 1 * r.val = q.val * 512 + r.val; omega
  | ⟨2, _⟩ => show win0_0.index t (2 : Fin 3) * 1 + 1 * 0 = 0; omega

end Cert.KernelIdeal.Blocks

end
-- ==== Proof.KernelPayload.lean ====
/-
  The kernel body's arithmetic at one entry of its logits block.

  At a grid point the body holds a `512 × 768` block `x` of embeddings, the layer's `768 × 9` weights `w`,
  the layer's bias row `β` and a `512 × 1` column `μ` of additive mask values, each behind leading unit axes.
  The entry it stores for row `r` and class `c` is
  `((∑ k, x[r, k] · w[k, c]) + β[c]) + μ[r]`:
  the matrix product onto a zero accumulator is the plain sum over the contracted axis, the bias row is
  broadcast down the rows and the mask column across the classes.
-/
import proofs.«137391_g38113539785138_cont_8to1_b_1190_5_alg».proof.Proof.Gen.KernelIdeal.Skeleton
import proofs.«137391_g38113539785138_cont_8to1_b_1190_5_alg».proof.Proof.LibUnitAxes
import Idealize.ShloMosaic.Lib.Pipeline.Value
import Idealize.ShloMosaic.Lib.ValueLayout
import Idealize.ShloMosaic.PureOps.Ideal.Laws

noncomputable section

open scoped BigOperators

namespace Cert.KernelIdeal.Payload

open Cert.KernelIdeal Cert.KernelIdeal.Gen Idealize.ShloMosaic Idealize.ShloMosaic.ValueIdx

/-! ## The product: a sum over the one contracted axis -/

/-- The left operand is read in the result's row … -/
theorem lhs_axis0 (i : S512x9.Idx) (q : dot_S512x768_S768x9_S512x9_1_0_0_1_n_n.contr.Idx) :
    (dot_S512x768_S768x9_S512x9_1_0_0_1_n_n.lhsIdx i q 0).val = (i 0).val := by
  unfold DotDims.lhsIdx
  rw [dif_neg (show ¬(0 : Fin S512x768.rank) ∈ dot_S512x768_S768x9_S512x9_1_0_0_1_n_n.lhsBatch by decide),
    dif_pos (show (0 : Fin S512x768.rank) ∈ dot_S512x768_S768x9_S512x9_1_0_0_1_n_n.lhsNonContracting by decide)]
  rfl
/-- … at the contracted coordinate in its column; -/
theorem lhs_axis1 (i : S512x9.Idx) (q : dot_S512x768_S768x9_S512x9_1_0_0_1_n_n.contr.Idx) :
    (dot_S512x768_S768x9_S512x9_1_0_0_1_n_n.lhsIdx i q 1).val = (q ⟨0, by decide⟩).val :=
  dot_S512x768_S768x9_S512x9_1_0_0_1_n_n.lhsIdx_val_of_single rfl i q
/-- the right operand at the contracted coordinate in its row … -/
theorem rhs_axis0 (i : S512x9.Idx) (q : dot_S512x768_S768x9_S512x9_1_0_0_1_n_n.contr.Idx) :
    (dot_S512x768_S768x9_S512x9_1_0_0_1_n_n.rhsIdx i q 0).val = (q ⟨0, by decide⟩).val :=
  dot_S512x768_S768x9_S512x9_1_0_0_1_n_n.rhsIdx_val_of_single rfl i q
/-- … in the result's column. -/
theorem rhs_axis1 (i : S512x9.Idx) (q : dot_S512x768_S768x9_S512x9_1_0_0_1_n_n.contr.Idx) :
    (dot_S512x768_S768x9_S512x9_1_0_0_1_n_n.rhsIdx i q 1).val = (i 1).val := by
  unfold DotDims.rhsIdx
  rw [dif_neg (show ¬(1 : Fin S768x9.rank) ∈ dot_S512x768_S768x9_S512x9_1_0_0_1_n_n.rhsBatch by decide),
    dif_pos (show (1 : Fin S768x9.rank) ∈ dot_S512x768_S768x9_S512x9_1_0_0_1_n_n.rhsNonContracting by decide)]
  rfl

/-- The block's product onto a zero accumulator, at `(r, c)`: the sum over `k` of row `r` against column `c`. -/
theorem matmul_zero_apply (A : FVec Ideal S512x768 .f32) (B : FVec Ideal S768x9 .f32) (r : Fin 512) (c : Fin 9) :
    matmul (F := Ideal) dot_S512x768_S768x9_S512x9_1_0_0_1_n_n none A B (constant S512x9 .f32 0x00000000#32) (ix2 r c)
      = ∑ k : Fin 768, A (ix2 r k) * B (ix2 k c) := by
  show FloatOps.matmul dot_S512x768_S768x9_S512x9_1_0_0_1_n_n none A B (constant S512x9 .f32 0x00000000#32) (ix2 r c) = _
  rw [Ideal.matmul_constant_zero_apply, ← Equiv.sum_comp (contrEquiv1 dot_S512x768_S768x9_S512x9_1_0_0_1_n_n 768 rfl rfl).symm]
  refine Finset.sum_congr rfl fun k _ => ?_
  have hk := contrEquiv1_symm_val dot_S512x768_S768x9_S512x9_1_0_0_1_n_n 768 rfl rfl k
  have el : dot_S512x768_S768x9_S512x9_1_0_0_1_n_n.lhsIdx (ix2 r c)
      ((contrEquiv1 dot_S512x768_S768x9_S512x9_1_0_0_1_n_n 768 rfl rfl).symm k) = ix2 r k := funext fun a => Fin.ext (by
    match a with
    | ⟨0, _⟩ => exact lhs_axis0 _ _
    | ⟨1, _⟩ => exact (lhs_axis1 _ _).trans hk)
  have er : dot_S512x768_S768x9_S512x9_1_0_0_1_n_n.rhsIdx (ix2 r c)
      ((contrEquiv1 dot_S512x768_S768x9_S512x9_1_0_0_1_n_n 768 rfl rfl).symm k) = ix2 k c := funext fun a => Fin.ext (by
    match a with
    | ⟨0, _⟩ => exact (rhs_axis0 _ _).trans hk
    | ⟨1, _⟩ => exact rhs_axis1 _ _)
  rw [el, er]

/-! ## The stored entry -/

/-- THE LOGITS PAYLOAD at `(r, c)` (whatever the two unit coordinates): the embedding row against the weight
    column, plus the bias entry, plus the mask entry of row `r`. -/
theorem logits_payload_apply (x : Vec Ideal S1x1x512x768 .f32) (w : Vec Ideal S1x768x9 .f32) (β : Vec Ideal S1x1x9 .f32)
    (μ : Vec Ideal S1x512x1 .f32) (u v : Fin 1) (r : Fin 512) (c : Fin 9) :
    k0_pay3 (F := Ideal) x w β μ (ix4 u v r c)
      = ((∑ k : Fin 768, x (ix4 (0 : Fin 1) (0 : Fin 1) r k) * w (ix3 (0 : Fin 1) k c)) + β (ix3 (0 : Fin 1) (0 : Fin 1) c))
        + μ (ix3 (0 : Fin 1) r (0 : Fin 1)) := by
  unfold k0_pay3 k0_pay1
  refine (shapeCast_ab_11ab_apply _ shapeCasts_S512x9_S1x1x512x9 u v r c).trans ?_
  refine (addf_apply _ _ (ix2 r c)).trans ?_
  refine congrArg₂ (· + ·) ?_ ?_
  · refine (addf_apply _ _ (ix2 r c)).trans ?_
    refine congrArg₂ (· + ·) ?_ ?_
    · refine (matmul_zero_apply _ _ r c).trans (Finset.sum_congr rfl fun k _ => ?_)
      refine congrArg₂ (· * ·) ?_ ?_
      · exact shapeCast_11ab_ab_apply x shapeCasts_S1x1x512x768_S512x768 r k
      · exact shapeCast_1ab_ab_apply w shapeCasts_S1x768x9_S768x9 k c
    · refine (broadcastTo_1b_ab_apply _ broadcasts_S1x9_S512x9 r c).trans ?_
      exact shapeCast_1ab_ab_apply β shapeCasts_S1x1x9_S1x9 (0 : Fin 1) c
  · refine (broadcastTo_a1_ab_apply _ broadcasts_S512x1_S512x9 r c).trans ?_
    exact shapeCast_1ab_ab_apply μ shapeCasts_S1x512x1_S512x1 r (0 : Fin 1)

end Cert.KernelIdeal.Payload

end
-- ==== Proof.KernelValue.lean ====
/-
  The kernel's two result arrays after the run.

  At the grid point of (batch entry `n`, layer `l`, quarter `q`) the body stores, for row `r` and class `c`,
  `((∑ k, x[r, k] · w[k, c]) + β[c]) + μ[r]` over its blocks, which are token `512 q + r` of `emb[n, l]`, layer
  `l`'s weights and bias, and that token's additive mask (`0` if attended, `-∞` if not). Adding that mask is
  selecting between the logit and `-∞`, so the point writes back its block of the masked logits; the 128 blocks
  tile the `[8, 4, 2048, 9]` array (the point that holds position `s` is the one of quarter `s / 512`), so the
  array ends as the masked logits. The other output is the embedding block stored unchanged, so that array
  ends as the embeddings.
-/
import proofs.«137391_g38113539785138_cont_8to1_b_1190_5_alg».proof.Proof.KernelBlocks
import proofs.«137391_g38113539785138_cont_8to1_b_1190_5_alg».proof.Proof.KernelPayload

noncomputable section

open scoped BigOperators

namespace Cert.KernelIdeal.Result

open Cert.KernelIdeal Cert.KernelIdeal.Gen Cert.KernelIdeal.Value Cert.KernelIdeal.Blocks Cert.KernelIdeal.Payload
open Idealize.ShloMosaic Idealize.ShloMosaic.TcCoe Idealize.SL.Sem Idealize.ShloMosaic.ValueIdx Cert.MaskedLogits
open Idealize.ShloMosaic.Pipeline (Dat)

variable (m : (ℓ : Loc nD τ sig) → Buf (Elt Ideal) ℓ) (ρ : Dev nD → PrngReg)

theorem zeros4 : (![0, 0, 0, 0] : Fin 4 → Nat) = fun _ => 0 := funext fun a => by fin_cases a <;> rfl
theorem zeros3 : (![0, 0, 0] : Fin 3 → Nat) = fun _ => 0 := funext fun a => by fin_cases a <;> rfl

/-- The masked logits of the argument arrays as core `c` was launched with them. -/
abbrev logitsOf (c : Dev nD) : S8x4x2048x9.Idx → EReal :=
  masked (m ((c : Thread nD τ).loc main_arg0)) (m ((c : Thread nD τ).loc main_arg1))
    (m ((c : Thread nD τ).loc main_arg2)) (m ((c : Thread nD τ).loc main_arg3))

/-! ## What a point leaves in its two output blocks -/

/-- The logits block at a point of (batch entry `n`, layer `l`, quarter `q`): entry `(r, c)` is the masked logit
    of token `512 q + r` for class `c`. -/
theorem logitsBlock (c : Dev nD) (t : Fin cfg0.N) (n : Fin 8) (l : Fin 4) (q : Fin 4)
    (e0 : win0_5.index t (0 : Fin 4) = n.val) (e1 : win0_5.index t (1 : Fin 4) = l.val) (e2 : win0_5.index t (2 : Fin 4) = q.val)
    (y : S1x1x512x9.Idx) :
    out0_5 (iblk m c 0 t) (iblk m c 1 t) (iblk m c 2 t) (iblk m c 3 t) y
      = logitsOf m c (ix4 n l (⟨q.val * 512 + (y 2).val, by have := q.isLt; have h : (y 2).val < 512 := (y 2).isLt; omega⟩ : Fin 2048)
          (⟨(y 3).val, (y 3).isLt⟩ : Fin 9)) := by
  obtain ⟨-, -, -, -, -, -, -, -, f30, f31, f32, f33, f20, f21, f22, f10, f11, f12, f00, f01, f02⟩ := idx_facts t
  obtain ⟨u, v, r, c', rfl⟩ : ∃ (u v : Fin 1) (r : Fin 512) (c' : Fin 9), y = ix4 u v r c' := ⟨y 0, y 1, y 2, y 3, eq_ix4 y⟩
  unfold out0_5
  rw [View.canon_unit_zero zeros4]
  simp only [View.ld_unit_zero (S := S1x1x512x768) zeros4, View.ld_unit_zero (S := S1x768x9) zeros3,
    View.ld_unit_zero (S := S1x1x9) zeros3, View.ld_unit_zero (S := S1x512x1) zeros3]
  refine (logits_payload_apply (iblk m c 3 t) (iblk m c 1 t) (iblk m c 2 t) (iblk m c 0 t) u v r c').trans ?_
  rw [maskBlock m c t n q (f00.trans e0) (f01.trans e2) f02 r, biasBlock m c t l (f20.trans e1) f21 f22 c']
  show _ = Scalar.select _ (logit _ _ _ n l _ c') ⊥
  rw [add_mask]
  refine congrArg (fun z => Scalar.select _ z (⊥ : EReal)) ?_
  unfold logit
  refine congrArg (· + _) (Finset.sum_congr rfl fun k _ => ?_)
  rw [embBlock m c t n l q (f30.trans e0) (f31.trans e1) (f32.trans e2) f33 (ix4 (0 : Fin 1) (0 : Fin 1) r k),
    wgtBlock m c t l (f10.trans e1) f11 f12 k c']

/-- The copy block at a point of (batch entry `n`, layer `l`, quarter `q`): the embedding block itself. -/
theorem copyBlock (c : Dev nD) (t : Fin cfg0.N) (n : Fin 8) (l : Fin 4) (q : Fin 4)
    (e0 : win0_5.index t (0 : Fin 4) = n.val) (e1 : win0_5.index t (1 : Fin 4) = l.val) (e2 : win0_5.index t (2 : Fin 4) = q.val)
    (y : S1x1x512x768.Idx) :
    out0_4 (iblk m c 0 t) (iblk m c 1 t) (iblk m c 2 t) (iblk m c 3 t) y
      = (m ((c : Thread nD τ).loc main_arg0) : S8x4x2048x768.Idx → EReal)
          (ix4 n l (⟨q.val * 512 + (y 2).val, by have := q.isLt; have h : (y 2).val < 512 := (y 2).isLt; omega⟩ : Fin 2048)
            (⟨(y 3).val, (y 3).isLt⟩ : Fin 768)) := by
  obtain ⟨-, -, -, -, -, -, -, -, f30, f31, f32, f33, -⟩ := idx_facts t
  unfold out0_4
  refine (canon4_eq (View.ld (iblk m c 3 t) r0_0) y).trans ?_
  show View.ld (iblk m c 3 t) r0_0 (ix4_0 y) = _
  rw [View.ld_unit_zero (S := S1x1x512x768) zeros4]
  exact embBlock m c t n l q (f30.trans e0) (f31.trans e1) (f32.trans e2) f33 (ix4_0 y)

/-! ## What a point writes back: its block of one whole-array function -/

/-- Point `t` writes back block `t` of the masked logits. -/
theorem flushed_logits (c : Dev nD) (t : Fin cfg0.N) :
    (dats m 0 c).flushed 5 t = ((cfg0.win 5).blk t).view.read (Elt Ideal) (logitsOf m c) := by
  obtain ⟨b0, b1, b2, b3, -⟩ := idx_facts t
  rw [Value.flushed5]
  funext j
  show out0_5 (iblk m c 0 t) (iblk m c 1 t) (iblk m c 2 t) (iblk m c 3 t) j = logitsOf m c (((cfg0.win 5).blk t).view.emb j)
  refine (logitsBlock m c t ⟨win0_5.index t (0 : Fin 4), b0⟩ ⟨win0_5.index t (1 : Fin 4), b1⟩ ⟨win0_5.index t (2 : Fin 4), b2⟩
    rfl rfl rfl j).trans ?_
  refine congrArg (logitsOf m c) (funext fun a => Fin.ext ?_)
  have hj0 : (j 0).val < 1 := (j 0).isLt
  have hj1 : (j 1).val < 1 := (j 1).isLt
  match a with
  | ⟨0, _⟩ => show win0_5.index t (0 : Fin 4) = win0_5.index t (0 : Fin 4) * 1 + 1 * (j 0).val; omega
  | ⟨1, _⟩ => show win0_5.index t (1 : Fin 4) = win0_5.index t (1 : Fin 4) * 1 + 1 * (j 1).val; omega
  | ⟨2, _⟩ => show win0_5.index t (2 : Fin 4) * 512 + (j 2).val = win0_5.index t (2 : Fin 4) * 512 + 1 * (j 2).val; omega
  | ⟨3, _⟩ => show (j 3).val = win0_5.index t (3 : Fin 4) * 9 + 1 * (j 3).val; omega

/-- Point `t` writes back block `t` of the embeddings. -/
theorem flushed_copy (c : Dev nD) (t : Fin cfg0.N) :
    (dats m 0 c).flushed 4 t = ((cfg0.win 4).blk t).view.read (Elt Ideal) (m ((c : Thread nD τ).loc main_arg0)) := by
  obtain ⟨b0, b1, b2, b3, g0, g1, g2, g3, -⟩ := idx_facts t
  rw [Value.flushed4]
  funext j
  show out0_4 (iblk m c 0 t) (iblk m c 1 t) (iblk m c 2 t) (iblk m c 3 t) j
    = (m ((c : Thread nD τ).loc main_arg0) : S8x4x2048x768.Idx → EReal) (((cfg0.win 4).blk t).view.emb j)
  refine (copyBlock m c t ⟨win0_5.index t (0 : Fin 4), b0⟩ ⟨win0_5.index t (1 : Fin 4), b1⟩ ⟨win0_5.index t (2 : Fin 4), b2⟩
    rfl rfl rfl j).trans ?_
  refine congrArg (m ((c : Thread nD τ).loc main_arg0) : S8x4x2048x768.Idx → EReal) (funext fun a => Fin.ext ?_)
  have hj0 : (j 0).val < 1 := (j 0).isLt
  have hj1 : (j 1).val < 1 := (j 1).isLt
  match a with
  | ⟨0, _⟩ => show win0_5.index t (0 : Fin 4) = win0_4.index t (0 : Fin 4) * 1 + 1 * (j 0).val; omega
  | ⟨1, _⟩ => show win0_5.index t (1 : Fin 4) = win0_4.index t (1 : Fin 4) * 1 + 1 * (j 1).val; omega
  | ⟨2, _⟩ => show win0_5.index t (2 : Fin 4) * 512 + (j 2).val = win0_4.index t (2 : Fin 4) * 512 + 1 * (j 2).val; omega
  | ⟨3, _⟩ => show (j 3).val = win0_4.index t (3 : Fin 4) * 768 + 1 * (j 3).val; omega

/-! ## The blocks tile the arrays -/

/-- Every (batch entry, layer, quarter) is some point's. -/
theorem idx_onto : ∀ (q0 : Fin 8) (q1 : Fin 4) (q2 : Fin 4), ∃ t : Fin cfg0.N, win0_5.index t = ![q0.val, q1.val, q2.val, 0] :=
  (by decide +kernel : ∀ (q0 : Fin 8) (q1 : Fin 4) (q2 : Fin 4), ∃ t : Fin grid0.N, win0_5.index t = ![q0.val, q1.val, q2.val, 0])

/-- An index of the logits array is in point `t`'s block iff each coordinate is in the block's range on its axis. -/
theorem mem_logitsBlk (t : Fin cfg0.N) (i : S8x4x2048x9.Idx) :
    i ∈ ((cfg0.win 5).blk t).view.set ↔ ∀ a : Fin 4, win0_5.index t a * S1x1x512x9.size a ≤ (i a).val
      ∧ (i a).val < win0_5.index t a * S1x1x512x9.size a + S1x1x512x9.size a := by
  show i ∈ ((View.whole main_v4_1).slice (win0_5.rect t)).set ↔ _
  rw [View.set_slice_whole, Rect.mem_set_unit]
  exact Iff.rfl

/-- Likewise for the embeddings' copy. -/
theorem mem_copyBlk (t : Fin cfg0.N) (i : S8x4x2048x768.Idx) :
    i ∈ ((cfg0.win 4).blk t).view.set ↔ ∀ a : Fin 4, win0_4.index t a * S1x1x512x768.size a ≤ (i a).val
      ∧ (i a).val < win0_4.index t a * S1x1x512x768.size a + S1x1x512x768.size a := by
  show i ∈ ((View.whole main_v4_0).slice (win0_4.rect t)).set ↔ _
  rw [View.set_slice_whole, Rect.mem_set_unit]
  exact Iff.rfl

/-- Every entry of the logits array is in the block of the point of its (batch entry, layer, quarter of its position). -/
theorem cover_logits (i : S8x4x2048x9.Idx) :
    ∃ t : Fin cfg0.N, (cfg0.win 5).flush t = true ∧ i ∈ ((cfg0.win 5).blk t).view.set := by
  have hi0 : (i 0).val < 8 := (i 0).isLt
  have hi1 : (i 1).val < 4 := (i 1).isLt
  have hi2 : (i 2).val < 2048 := (i 2).isLt
  have hi3 : (i 3).val < 9 := (i 3).isLt
  obtain ⟨t, ht⟩ := idx_onto ⟨(i 0).val, hi0⟩ ⟨(i 1).val, hi1⟩ ⟨(i 2).val / 512, by omega⟩
  have q0 : win0_5.index t (0 : Fin 4) = (i 0).val := congrFun ht 0
  have q1 : win0_5.index t (1 : Fin 4) = (i 1).val := congrFun ht 1
  have q2 : win0_5.index t (2 : Fin 4) = (i 2).val / 512 := congrFun ht 2
  have q3 : win0_5.index t (3 : Fin 4) = 0 := congrFun ht 3
  refine ⟨t, flush0_5 t, ?_⟩
  rw [mem_logitsBlk]
  intro a
  match a with
  | ⟨0, _⟩ => show win0_5.index t (0 : Fin 4) * 1 ≤ (i 0).val ∧ (i 0).val < win0_5.index t (0 : Fin 4) * 1 + 1; omega
  | ⟨1, _⟩ => show win0_5.index t (1 : Fin 4) * 1 ≤ (i 1).val ∧ (i 1).val < win0_5.index t (1 : Fin 4) * 1 + 1; omega
  | ⟨2, _⟩ => show win0_5.index t (2 : Fin 4) * 512 ≤ (i 2).val ∧ (i 2).val < win0_5.index t (2 : Fin 4) * 512 + 512; omega
  | ⟨3, _⟩ => show win0_5.index t (3 : Fin 4) * 9 ≤ (i 3).val ∧ (i 3).val < win0_5.index t (3 : Fin 4) * 9 + 9; omega

/-- Every entry of the embeddings' copy is in the block of the point of its (batch entry, layer, quarter). -/
theorem cover_copy (i : S8x4x2048x768.Idx) :
    ∃ t : Fin cfg0.N, (cfg0.win 4).flush t = true ∧ i ∈ ((cfg0.win 4).blk t).view.set := by
  have hi0 : (i 0).val < 8 := (i 0).isLt
  have hi1 : (i 1).val < 4 := (i 1).isLt
  have hi2 : (i 2).val < 2048 := (i 2).isLt
  have hi3 : (i 3).val < 768 := (i 3).isLt
  obtain ⟨t, ht⟩ := idx_onto ⟨(i 0).val, hi0⟩ ⟨(i 1).val, hi1⟩ ⟨(i 2).val / 512, by omega⟩
  have q0 : win0_5.index t (0 : Fin 4) = (i 0).val := congrFun ht 0
  have q1 : win0_5.index t (1 : Fin 4) = (i 1).val := congrFun ht 1
  have q2 : win0_5.index t (2 : Fin 4) = (i 2).val / 512 := congrFun ht 2
  obtain ⟨-, -, -, -, g0, g1, g2, g3, -⟩ := idx_facts t
  refine ⟨t, flush0_4 t, ?_⟩
  rw [mem_copyBlk]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 1 ≤ (i 1).val ∧ (i 1).val < win0_4.index t (1 : Fin 4) * 1 + 1; omega
  | ⟨2, _⟩ => show win0_4.index t (2 : Fin 4) * 512 ≤ (i 2).val ∧ (i 2).val < win0_4.index t (2 : Fin 4) * 512 + 512; omega
  | ⟨3, _⟩ => show win0_4.index t (3 : Fin 4) * 768 ≤ (i 3).val ∧ (i 3).val < win0_4.index t (3 : Fin 4) * 768 + 768; omega

/-! ## The arrays after the run -/

/-- The logits array ends as the masked logits. -/
theorem final_logits (c : Dev nD) : (dats m 0 c).arrAt 5 cfg0.N = logitsOf m c :=
  (dats m 0 c).arrAt_eq_of_cover 5 (logitsOf m c) (fun t _ => flushed_logits m c t) cover_logits

/-- The copy ends as the embeddings. -/
theorem final_copy (c : Dev nD) : (dats m 0 c).arrAt 4 cfg0.N = m ((c : Thread nD τ).loc main_arg0) :=
  (dats m 0 c).arrAt_eq_of_cover 4 (m ((c : Thread nD τ).loc main_arg0)) (fun t _ => flushed_copy m c t) cover_copy

/-- THE KERNEL'S RUN, READ: every weakly fair execution terminates with the copy at the embeddings, the logits array at
    the masked logits of the argument arrays, and the arguments unchanged. -/
theorem run : θ_run defs (onTc (τ := τ) (main (F := Ideal))) ⟨m, fun _ => 0, ρ⟩ fun r => ∀ c : Dev nD,
      r.2.mem ((c : Thread nD τ).loc main_v4_0) = m ((c : Thread nD τ).loc main_arg0)
      ∧ r.2.mem ((c : Thread nD τ).loc main_v4_1) = logitsOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final_copy m c), (h c).2.1.trans (final_logits m c), (h c).2.2⟩)
    (Value.run_blocks m ρ)

end Cert.KernelIdeal.Result

end
-- ==== Proof.RefLayer.lean ====
/-
  One layer of the reference, read at an index.

  For each of the four layers the reference slices that layer's embeddings, weights and bias out of the
  argument arrays, flattens the embeddings to `16384 = 8 · 2048` rows of `768` features, multiplies by the
  `768 × 9` weight matrix, adds the bias row to every row, restores the `[8, 2048, 9]` layout and selects,
  position by position, between that logit and `-∞` by the attention bit. The four layers differ only in the
  offset `o` of their slices, so everything here is stated once for an offset `o` that is the layer `l`.

  The flattened row of token `(n, s)` is row `n · 2048 + s`; both reshapes preserve row-major position, which
  is what identifies the flattened operand's entry `(n · 2048 + s, k)` with `emb[n, l, s, k]`.
-/
import proofs.«137391_g38113539785138_cont_8to1_b_1190_5_alg».proof.Proof.Gen.ReferenceIdeal
import proofs.«137391_g38113539785138_cont_8to1_b_1190_5_alg».proof.Proof.MaskedLogits
import Idealize.ShloMosaic.Lib.Pipeline.Value
import Idealize.ShloMosaic.Lib.ValueLayout
import Idealize.ShloMosaic.PureOps.Ideal.Laws

noncomputable section

open scoped BigOperators

namespace Cert.ReferenceIdeal.Layer

open Cert.ReferenceIdeal Cert.ReferenceIdeal.Gen Idealize.ShloMosaic Idealize.ShloMosaic.ValueIdx Cert.MaskedLogits

/-- The flattened row that holds token `s` of batch entry `n`. -/
abbrev row (n : Fin 8) (s : Fin 2048) : Fin 16384 :=
  ⟨n.val * 2048 + s.val, by have := n.isLt; have := s.isLt; omega⟩

/-! ## The operands of the product -/

/-- The flattened embeddings of layer `l`: row `n · 2048 + s`, column `k` is `emb[n, l, s, k]`. -/
theorem embRows (o : Nat) (l : Fin 4) (hl : l.val = o) (hs : S8x4x2048x768.Slices ![0, o, 0, 0] S8x1x2048x768)
    (x0 : S8x4x2048x768.Idx → EReal) (n : Fin 8) (s : Fin 2048) (k : Fin 768) :
    shapeCast S16384x768 (shapeCast S8x2048x768 (extractStridedSlice S8x1x2048x768 ![0, o, 0, 0] x0 hs)
      shapeCasts_S8x1x2048x768_S8x2048x768) shapeCasts_S8x2048x768_S16384x768 (ix2 (row n s) k) = x0 (ix4 n l s k) := by
  refine (shapeCast_apply _ shapeCasts_S8x2048x768_S16384x768 (ix2 (row n s) k) (ix3 n s k) ?_).trans ?_
  · rw [Shape.rowMajor_val_three, Shape.rowMajor_val_two]
    rfl
  refine (shapeCast_apply _ shapeCasts_S8x1x2048x768_S8x2048x768 (ix3 n s k) (ix4 n (0 : Fin 1) s k) ?_).trans ?_
  · rw [Shape.rowMajor_val_four, Shape.rowMajor_val_three]
    show ((n.val * 1 + 0) * 2048 + s.val) * 768 + k.val = (n.val * 2048 + s.val) * 768 + k.val
    rw [Nat.mul_one, Nat.add_zero]
  exact extractStridedSlice_apply ![0, o, 0, 0] x0 hs (ix4 n (0 : Fin 1) s k) (ix4 n l s k) (fun a => match a with
    | ⟨0, _⟩ => by show n.val = 0 + n.val; omega
    | ⟨1, _⟩ => by show l.val = o + 0; omega
    | ⟨2, _⟩ => by show s.val = 0 + s.val; omega
    | ⟨3, _⟩ => by show k.val = 0 + k.val; omega)

/-- The weight matrix of layer `l`: entry `(k, c)` is `W[l, k, c]`. -/
theorem wgtCols (o : Nat) (l : Fin 4) (hl : l.val = o) (hs : S4x768x9.Slices ![o, 0, 0] S1x768x9)
    (x2 : S4x768x9.Idx → EReal) (k : Fin 768) (c : Fin 9) :
    shapeCast S768x9 (extractStridedSlice S1x768x9 ![o, 0, 0] x2 hs) shapeCasts_S1x768x9_S768x9 (ix2 k c) = x2 (ix3 l k c) := by
  refine (shapeCast_1ab_ab_apply _ shapeCasts_S1x768x9_S768x9 k c).trans ?_
  exact extractStridedSlice_apply ![o, 0, 0] x2 hs (ix3 (0 : Fin 1) k c) (ix3 l k c) (fun a => match a with
    | ⟨0, _⟩ => by show l.val = o + 0; omega
    | ⟨1, _⟩ => by show k.val = 0 + k.val; omega
    | ⟨2, _⟩ => by show c.val = 0 + c.val; omega)

/-- The bias of layer `l` spread over the rows: every row reads `b[l, c]` in column `c`. -/
theorem biasRow (o : Nat) (l : Fin 4) (hl : l.val = o) (hs : S4x9.Slices ![o, 0] S1x9)
    (x3 : S4x9.Idx → EReal) (r : Fin 16384) (c : Fin 9) :
    broadcastInDim S16384x9 ![0, 1] bcast_S1x9_S16384x9_0_1 (broadcastInDim S1x9 ![1] bcast_S9_S1x9_1
      (shapeCast S9 (extractStridedSlice S1x9 ![o, 0] x3 hs) shapeCasts_S1x9_S9)) (ix2 r c) = x3 (ix2 l c) := by
  refine (broadcastInDim_apply _ bcast_S1x9_S16384x9_0_1 _ (ix2 r c) (ix2 (0 : Fin 1) c) (fun a => match a with
    | ⟨0, _⟩ => by show 0 = if (1 : Nat) = 1 then 0 else r.val; rw [if_pos rfl]
    | ⟨1, _⟩ => by show c.val = if (9 : Nat) = 1 then 0 else c.val; rw [if_neg (by decide)])).trans ?_
  refine (broadcastInDim_apply _ bcast_S9_S1x9_1 _ (ix2 (0 : Fin 1) c) (ix1 c) (fun a => match a with
    | ⟨0, _⟩ => by show c.val = if (9 : Nat) = 1 then 0 else c.val; rw [if_neg (by decide)])).trans ?_
  refine (shapeCast_1a_a_apply _ shapeCasts_S1x9_S9 c).trans ?_
  exact extractStridedSlice_apply ![o, 0] x3 hs (ix2 (0 : Fin 1) c) (ix2 l c) (fun a => match a with
    | ⟨0, _⟩ => by show l.val = o + 0; omega
    | ⟨1, _⟩ => by show c.val = 0 + c.val; omega)

/-! ## The product: a sum over the one contracted axis -/

/-- The left operand is read in the result's row … -/
theorem lhs_axis0 (i : S16384x9.Idx) (q : dot_S16384x768_S768x9_S16384x9_1_0_0_1_n_n.contr.Idx) :
    (dot_S16384x768_S768x9_S16384x9_1_0_0_1_n_n.lhsIdx i q 0).val = (i 0).val := by
  unfold DotDims.lhsIdx
  rw [dif_neg (show ¬(0 : Fin S16384x768.rank) ∈ dot_S16384x768_S768x9_S16384x9_1_0_0_1_n_n.lhsBatch by decide),
    dif_pos (show (0 : Fin S16384x768.rank) ∈ dot_S16384x768_S768x9_S16384x9_1_0_0_1_n_n.lhsNonContracting by decide)]
  rfl
/-- … at the contracted coordinate in its column; -/
theorem lhs_axis1 (i : S16384x9.Idx) (q : dot_S16384x768_S768x9_S16384x9_1_0_0_1_n_n.contr.Idx) :
    (dot_S16384x768_S768x9_S16384x9_1_0_0_1_n_n.lhsIdx i q 1).val = (q ⟨0, by decide⟩).val :=
  dot_S16384x768_S768x9_S16384x9_1_0_0_1_n_n.lhsIdx_val_of_single rfl i q
/-- the right operand at the contracted coordinate in its row … -/
theorem rhs_axis0 (i : S16384x9.Idx) (q : dot_S16384x768_S768x9_S16384x9_1_0_0_1_n_n.contr.Idx) :
    (dot_S16384x768_S768x9_S16384x9_1_0_0_1_n_n.rhsIdx i q 0).val = (q ⟨0, by decide⟩).val :=
  dot_S16384x768_S768x9_S16384x9_1_0_0_1_n_n.rhsIdx_val_of_single rfl i q
/-- … in the result's column. -/
theorem rhs_axis1 (i : S16384x9.Idx) (q : dot_S16384x768_S768x9_S16384x9_1_0_0_1_n_n.contr.Idx) :
    (dot_S16384x768_S768x9_S16384x9_1_0_0_1_n_n.rhsIdx i q 1).val = (i 1).val := by
  unfold DotDims.rhsIdx
  rw [dif_neg (show ¬(1 : Fin S768x9.rank) ∈ dot_S16384x768_S768x9_S16384x9_1_0_0_1_n_n.rhsBatch by decide),
    dif_pos (show (1 : Fin S768x9.rank) ∈ dot_S16384x768_S768x9_S16384x9_1_0_0_1_n_n.rhsNonContracting by decide)]
  rfl

/-- The host's product of a `16384 × 768` by a `768 × 9` matrix, at `(r, c)`: the sum over `k` of row `r`
    against column `c` — the contraction index re-indexed by its one coordinate. -/
theorem dot_apply (A : S16384x768.Idx → EReal) (B : S768x9.Idx → EReal) (r : Fin 16384) (c : Fin 9) :
    Host.dotGeneral (F := Ideal) (φ₁ := .f32) (φ₂ := .f32) dot_S16384x768_S768x9_S16384x9_1_0_0_1_n_n none A B (ix2 r c)
      = ∑ k : Fin 768, A (ix2 r k) * B (ix2 k c) := by
  simp only [Host.dotGeneral]
  rw [Ideal.dotGeneral_apply, ← Equiv.sum_comp (contrEquiv1 dot_S16384x768_S768x9_S16384x9_1_0_0_1_n_n 768 rfl rfl).symm]
  refine Finset.sum_congr rfl fun k _ => ?_
  have hk := contrEquiv1_symm_val dot_S16384x768_S768x9_S16384x9_1_0_0_1_n_n 768 rfl rfl k
  have el : dot_S16384x768_S768x9_S16384x9_1_0_0_1_n_n.lhsIdx (ix2 r c)
      ((contrEquiv1 dot_S16384x768_S768x9_S16384x9_1_0_0_1_n_n 768 rfl rfl).symm k) = ix2 r k := funext fun a => Fin.ext (by
    match a with
    | ⟨0, _⟩ => exact lhs_axis0 _ _
    | ⟨1, _⟩ => exact (lhs_axis1 _ _).trans hk)
  have er : dot_S16384x768_S768x9_S16384x9_1_0_0_1_n_n.rhsIdx (ix2 r c)
      ((contrEquiv1 dot_S16384x768_S768x9_S16384x9_1_0_0_1_n_n 768 rfl rfl).symm k) = ix2 k c := funext fun a => Fin.ext (by
    match a with
    | ⟨0, _⟩ => exact (rhs_axis0 _ _).trans hk
    | ⟨1, _⟩ => exact rhs_axis1 _ _)
  rw [el, er]

/-! ## The mask -/

/-- The attention bits spread over the classes: position `(n, s)`'s bit for every class. -/
theorem attBit (x1 : S8x2048.Idx → BitVec 1) (n : Fin 8) (s : Fin 2048) (c : Fin 9) :
    broadcastInDim S8x2048x9 ![0, 1, 2] bcast_S8x2048x1_S8x2048x9_0_1_2
      (broadcastInDim S8x2048x1 ![0, 1] bcast_S8x2048_S8x2048x1_0_1 x1) (ix3 n s c) = x1 (ix2 n s) := by
  refine (broadcastInDim_apply _ bcast_S8x2048x1_S8x2048x9_0_1_2 _ (ix3 n s c) (ix3 n s (0 : Fin 1)) (fun a => match a with
    | ⟨0, _⟩ => by show n.val = if (8 : Nat) = 1 then 0 else n.val; rw [if_neg (by decide)]
    | ⟨1, _⟩ => by show s.val = if (2048 : Nat) = 1 then 0 else s.val; rw [if_neg (by decide)]
    | ⟨2, _⟩ => by show 0 = if (1 : Nat) = 1 then 0 else c.val; rw [if_pos rfl])).trans ?_
  exact broadcastInDim_apply _ bcast_S8x2048_S8x2048x1_0_1 x1 (ix3 n s (0 : Fin 1)) (ix2 n s) (fun a => match a with
    | ⟨0, _⟩ => by show n.val = if (8 : Nat) = 1 then 0 else n.val; rw [if_neg (by decide)]
    | ⟨1, _⟩ => by show s.val = if (2048 : Nat) = 1 then 0 else s.val; rw [if_neg (by decide)])

/-- The fill value everywhere: `-∞`. -/
theorem fillNegInf (i : S8x2048x9.Idx) :
    broadcastInDim S8x2048x9 ![] bcast_S_S8x2048x9 (id (constant (F := Ideal) S_ .f32 0xFF800000#32)) i = (⊥ : EReal) := by
  refine (broadcastInDim_apply _ bcast_S_S8x2048x9 _ i ix0 (fun a => a.elim0)).trans ?_
  exact ofBits_neg_inf

/-! ## One layer -/

/-- LAYER `l` of the reference at `(n, s, c)`: the logit of token `(n, s)` for class `c` in layer `l` where the
    position is attended, `-∞` where it is not. -/
theorem layer_apply (o : Nat) (l : Fin 4) (hl : l.val = o)
    (hs0 : S8x4x2048x768.Slices ![0, o, 0, 0] S8x1x2048x768) (hs2 : S4x768x9.Slices ![o, 0, 0] S1x768x9)
    (hs3 : S4x9.Slices ![o, 0] S1x9)
    (x0 : S8x4x2048x768.Idx → EReal) (x1 : S8x2048.Idx → BitVec 1) (x2 : S4x768x9.Idx → EReal) (x3 : S4x9.Idx → EReal)
    (n : Fin 8) (s : Fin 2048) (c : Fin 9) :
    select (broadcastInDim S8x2048x9 ![0, 1, 2] bcast_S8x2048x1_S8x2048x9_0_1_2
        (broadcastInDim S8x2048x1 ![0, 1] bcast_S8x2048_S8x2048x1_0_1 x1))
      (shapeCast S8x2048x9 (addf (F := Ideal) (φ := .f32)
        (Host.dotGeneral (F := Ideal) (φ₁ := .f32) (φ₂ := .f32) dot_S16384x768_S768x9_S16384x9_1_0_0_1_n_n none
          (shapeCast S16384x768 (shapeCast S8x2048x768 (extractStridedSlice S8x1x2048x768 ![0, o, 0, 0] x0 hs0)
            shapeCasts_S8x1x2048x768_S8x2048x768) shapeCasts_S8x2048x768_S16384x768)
          (shapeCast S768x9 (extractStridedSlice S1x768x9 ![o, 0, 0] x2 hs2) shapeCasts_S1x768x9_S768x9))
        (broadcastInDim S16384x9 ![0, 1] bcast_S1x9_S16384x9_0_1 (broadcastInDim S1x9 ![1] bcast_S9_S1x9_1
          (shapeCast S9 (extractStridedSlice S1x9 ![o, 0] x3 hs3) shapeCasts_S1x9_S9)))) shapeCasts_S16384x9_S8x2048x9)
      (broadcastInDim S8x2048x9 ![] bcast_S_S8x2048x9 (id (constant (F := Ideal) S_ .f32 0xFF800000#32))) (ix3 n s c)
    = Scalar.select (x1 (ix2 n s)) (logit x0 x2 x3 n l s c) ⊥ := by
  rw [select_apply, attBit, fillNegInf]
  refine congrArg (fun y => Scalar.select (x1 (ix2 n s)) y (⊥ : EReal)) ?_
  refine (shapeCast_apply _ shapeCasts_S16384x9_S8x2048x9 (ix3 n s c) (ix2 (row n s) c) ?_).trans ?_
  · rw [Shape.rowMajor_val_two, Shape.rowMajor_val_three]
    rfl
  rw [addf_apply, dot_apply, biasRow o l hl hs3]
  unfold logit
  refine congrArg (· + x3 (ix2 l c)) (Finset.sum_congr rfl fun k _ => ?_)
  rw [embRows o l hl hs0, wgtCols o l hl hs2]

end Cert.ReferenceIdeal.Layer

end
-- ==== Proof.RefValue.lean ====
/-
  The reference's third result is the masked logits.

  The reference stacks its four layers along the layer axis: the entry at `(n, l, s, c)` of the stack is layer
  `l`'s entry at `(n, s, c)` (each layer is first given a unit layer axis, and the four are laid end to end, so
  the piece that holds layer coordinate `l` is the `l`-th, read at unit coordinate `0`). Each layer's entry is
  the logit where the position is attended and `-∞` elsewhere (the per-layer reading), so the stack is the
  masked logits of the argument arrays.
-/
import proofs.«137391_g38113539785138_cont_8to1_b_1190_5_alg».proof.Proof.Gen.ReferenceIdeal.Run
import proofs.«137391_g38113539785138_cont_8to1_b_1190_5_alg».proof.Proof.RefLayer

noncomputable section

open scoped BigOperators

namespace Cert.ReferenceIdeal.RefValue

open Cert.ReferenceIdeal Cert.ReferenceIdeal.Gen Cert.ReferenceIdeal.Value Cert.ReferenceIdeal.Layer
open Idealize.ShloMosaic Idealize.ShloMosaic.TcCoe Idealize.SL.Sem Idealize.ShloMosaic.ValueIdx Cert.MaskedLogits

/-- A layer given a unit layer axis reads, at `(n, u, s, c)`, the layer at `(n, s, c)`. -/
theorem unitLayerAxis (X : S8x2048x9.Idx → EReal) (n : Fin 8) (u : Fin 1) (s : Fin 2048) (c : Fin 9) :
    broadcastInDim S8x1x2048x9 ![0, 2, 3] bcast_S8x2048x9_S8x1x2048x9_0_2_3 X (ix4 n u s c) = X (ix3 n s c) :=
  broadcastInDim_apply _ bcast_S8x2048x9_S8x1x2048x9_0_2_3 X (ix4 n u s c) (ix3 n s c) (fun a => match a with
    | ⟨0, _⟩ => by show n.val = if (8 : Nat) = 1 then 0 else n.val; rw [if_neg (by decide)]
    | ⟨1, _⟩ => by show s.val = if (2048 : Nat) = 1 then 0 else s.val; rw [if_neg (by decide)]
    | ⟨2, _⟩ => by show c.val = if (9 : Nat) = 1 then 0 else c.val; rw [if_neg (by decide)])

/-- The stack of unit-axis layers at layer coordinate `k`: the `k`-th piece, `k` unit extents in, read at its
    unit coordinate `0`. -/
theorem stack_apply (xs : List ((s : Shape) × (s.Idx → EReal)))
    (hcat : Shape.Concatenates (xs.map (·.1)) S8x4x2048x9 (1 : Fin S8x4x2048x9.rank))
    (k : Nat) (hk4 : k < 4) (hk : k < xs.length) (X : S8x2048x9.Idx → EReal)
    (hX : xs[k] = ⟨S8x1x2048x9, broadcastInDim S8x1x2048x9 ![0, 2, 3] bcast_S8x2048x9_S8x1x2048x9_0_2_3 X⟩)
    (hpre : (((xs.take k).map (·.1)).map fun s =>
      if h : s.rank = S8x4x2048x9.rank then s.size ((1 : Fin S8x4x2048x9.rank).cast h.symm) else 0).sum = k)
    (n : Fin 8) (s : Fin 2048) (c : Fin 9) :
    concatenate S8x4x2048x9 1 xs hcat (ix4 n (⟨k, hk4⟩ : Fin 4) s c) = X (ix3 n s c) := by
  refine (concatenate_apply_piece (1 : Fin S8x4x2048x9.rank) xs hcat (ix4 n (⟨k, hk4⟩ : Fin 4) s c) k hk S8x1x2048x9 _ hX rfl k
    hpre (ix4 n (0 : Fin 1) s c) ?_ ?_).trans (unitLayerAxis X n 0 s c)
  · intro b hb
    match b with
    | ⟨0, _⟩ => rfl
    | ⟨1, _⟩ => exact absurd rfl hb
    | ⟨2, _⟩ => rfl
    | ⟨3, _⟩ => rfl
  · rfl

/-- THE REFERENCE'S LOGITS are the masked logits of the argument arrays. -/
theorem result_eq (m : (ℓ : Loc nD τ sig) → Buf (Elt Ideal) ℓ) (c : Dev nD) :
    res_main_v60 (F := Ideal) m c
      = masked (m ((c.tc : Thread nD τ).loc main_arg0)) (m ((c.tc : Thread nD τ).loc main_arg1))
          (m ((c.tc : Thread nD τ).loc main_arg2)) (m ((c.tc : Thread nD τ).loc main_arg3)) := by
  funext j
  obtain ⟨n, l, s, c', rfl⟩ : ∃ (n : Fin 8) (l : Fin 4) (s : Fin 2048) (c' : Fin 9), j = ix4 n l s c' :=
    ⟨j 0, j 1, j 2, j 3, eq_ix4 j⟩
  unfold res_main_v60 masked
  match l with
  | ⟨0, h⟩ =>
    refine (stack_apply _ _ 0 h (by exact h) _ (by rfl) (by rfl) n s c').trans ?_
    exact layer_apply 0 ⟨0, h⟩ rfl _ _ _ _ _ _ _ n s c'
  | ⟨1, h⟩ =>
    refine (stack_apply _ _ 1 h (by exact h) _ (by rfl) (by rfl) n s c').trans ?_
    exact layer_apply 1 ⟨1, h⟩ rfl _ _ _ _ _ _ _ n s c'
  | ⟨2, h⟩ =>
    refine (stack_apply _ _ 2 h (by exact h) _ (by rfl) (by rfl) n s c').trans ?_
    exact layer_apply 2 ⟨2, h⟩ rfl _ _ _ _ _ _ _ n s c'
  | ⟨3, h⟩ =>
    refine (stack_apply _ _ 3 h (by exact h) _ (by rfl) (by rfl) n s c').trans ?_
    exact layer_apply 3 ⟨3, h⟩ rfl _ _ _ _ _ _ _ n s c'

end Cert.ReferenceIdeal.RefValue

end
-- ==== Proof.lean ====
/-
  The proof of `Cert.Claim`: the fused classifier kernel against its reference, over the extended reals.

  Both programs return the embeddings, the attention bits, and per-layer classifier logits masked by the attention
  bits. For batch entry `n`, layer `l`, position `s` and class `c` the logit is
  `(∑ k, emb[n, l, s, k] · W[l, k, c]) + b[l, c]`; the result is that logit where `att[n, s]` is set and `-∞` where
  it is clear (Proof/MaskedLogits.lean).
  • The reference computes each layer by a matrix product of the flattened embeddings, adds the bias, SELECTS between
    the logit and `-∞`, and stacks the four layers (Proof/RefLayer.lean, Proof/RefValue.lean).
  • The kernel walks a grid of (batch entry, layer, quarter of the positions); at each point it copies the embedding
    block to its first output and stores the block's product with the layer's weights plus the bias PLUS an additive
    mask, `0` on attended positions and `-∞` elsewhere (Proof/KernelPayload.lean, Proof/KernelBlocks.lean); the
    blocks tile the output arrays (Proof/KernelValue.lean).
  The two agree because on the extended reals `x + 0 = x` and `x + ⊥ = ⊥` for every `x`; no finiteness of the
  inputs is used. The two kernel frames are the generated ones, the reference's frame is its run with the results
  dropped, and the idealization rewrote nothing.
-/
import proofs.«137391_g38113539785138_cont_8to1_b_1190_5_alg».proof.Defs
import proofs.«137391_g38113539785138_cont_8to1_b_1190_5_alg».proof.Proof.Gen.Kernel
import proofs.«137391_g38113539785138_cont_8to1_b_1190_5_alg».proof.Proof.Gen.Kernel.Skeleton
import proofs.«137391_g38113539785138_cont_8to1_b_1190_5_alg».proof.Proof.Gen.Kernel.Launch
import proofs.«137391_g38113539785138_cont_8to1_b_1190_5_alg».proof.Proof.Gen.Kernel.Points
import proofs.«137391_g38113539785138_cont_8to1_b_1190_5_alg».proof.Proof.Gen.Kernel.Frame
import proofs.«137391_g38113539785138_cont_8to1_b_1190_5_alg».proof.Proof.Gen.KernelIdeal
import proofs.«137391_g38113539785138_cont_8to1_b_1190_5_alg».proof.Proof.Gen.KernelIdeal.Skeleton
import proofs.«137391_g38113539785138_cont_8to1_b_1190_5_alg».proof.Proof.Gen.KernelIdeal.Launch
import proofs.«137391_g38113539785138_cont_8to1_b_1190_5_alg».proof.Proof.Gen.KernelIdeal.Points
import proofs.«137391_g38113539785138_cont_8to1_b_1190_5_alg».proof.Proof.Gen.KernelIdeal.Frame
import proofs.«137391_g38113539785138_cont_8to1_b_1190_5_alg».proof.Proof.Gen.ReferenceIdeal
import proofs.«137391_g38113539785138_cont_8to1_b_1190_5_alg».proof.Proof.Gen.Pre_finite_inputs
import proofs.«137391_g38113539785138_cont_8to1_b_1190_5_alg».proof.Proof.Gen.KernelIdeal.Value
import proofs.«137391_g38113539785138_cont_8to1_b_1190_5_alg».proof.Proof.Gen.ReferenceIdeal.Run
import proofs.«137391_g38113539785138_cont_8to1_b_1190_5_alg».proof.Proof.KernelValue
import proofs.«137391_g38113539785138_cont_8to1_b_1190_5_alg».proof.Proof.RefValue
import Idealize.ShloMosaic.Adequacy
import Idealize.ShloMosaic.Init

noncomputable section

namespace Cert.Proof

open Idealize.ShloMosaic Idealize.SL.Sem

/-- The word-level kernel runs and leaves its arguments: the generated frame. -/
theorem frame_kernel : Cert.frame_Kernel := fun m ρ _ => Cert.Kernel.Gen.frame m ρ

/-- The idealized kernel runs and leaves its arguments: the generated frame. -/
theorem frame_kernelIdeal : Cert.frame_KernelIdeal := fun m ρ _ => Cert.KernelIdeal.Gen.frame m ρ

/-- The reference runs and leaves its arguments: its run, the results dropped. -/
theorem frame_reference : Cert.frame_ReferenceIdeal := fun m ρ _ =>
  (θ_run Cert.ReferenceIdeal.defs _ _).mono (fun _ h c => (h c).2.2.2) (Cert.ReferenceIdeal.Value.run (F := Ideal) m ρ)

/-- The idealization rewrote no operation. -/
theorem preserves : Cert.preserves_Kernel_KernelIdeal := trivial

/-- From memories that agree on the arguments both programs end with the embeddings, the attention bits and the
    masked logits of those arguments. -/
theorem algebraic : Cert.algebraic_KernelIdeal_ReferenceIdeal := by
  intro m ρ m' ρ' _ hagree
  refine ⟨fun c => m ((c.tc : Thread Cert.KernelIdeal.nD Cert.KernelIdeal.τ).loc Cert.KernelIdeal.main_arg0),
    fun c => m ((c.tc : Thread Cert.KernelIdeal.nD Cert.KernelIdeal.τ).loc Cert.KernelIdeal.main_arg1),
    fun c => Cert.KernelIdeal.Result.logitsOf m c, ?_, ?_⟩
  · exact (θ_run Cert.KernelIdeal.defs _ _).mono
      (fun _ h c => ⟨(h c).1, (h c).2.2.2.1, (h c).2.1, (h c).2.2⟩) (Cert.KernelIdeal.Result.run m ρ)
  · refine (θ_run Cert.ReferenceIdeal.defs _ _).mono (fun _ h c => ?_) (Cert.ReferenceIdeal.Value.run (F := Ideal) m' ρ')
    refine ⟨(h c).1.trans (hagree c).1, (h c).2.1.trans (hagree c).2.1, (h c).2.2.1.trans ?_, (h c).2.2.2⟩
    rw [Cert.ReferenceIdeal.RefValue.result_eq, (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
